-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x128 : S_.BroadcastsInDim S256x128 (![] : Fin 0 → Fin S256x128.rank)
  reducesTo_S256x128_S_d0_1 : S256x128.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  main_v38

def fn_part1 {F : FTy → Type} [FloatOps F] (main_arg4 : FVec F S32768x256 .f32) (main_arg5 : FVec F S256x128 .f32) (main_arg6 : FVec F S256x256 .f32) (main_arg7 : FVec F S256x256 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S32768x128 .f32) (main_arg1 : FVec F S32768x256 .f32) (main_arg2 : FVec F S32768x256 .f32) (main_arg3 : FVec F S32768x256 .f32) (main_arg4 : FVec F S32768x256 .f32) (main_arg5 : FVec F S256x128 .f32) (main_arg6 : FVec F S256x256 .f32) (main_arg7 : FVec F S256x256 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_arg6 main_arg7 main_v13 main_v16
-- ==== Kernel.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S128x256 : Shape := ⟨2, ![128, 256]⟩
abbrev S1024x128 : Shape := ⟨2, ![1024, 128]⟩
abbrev S1024x256 : Shape := ⟨2, ![1024, 256]⟩

abbrev nBuf : Space → Nat
  | .hbm => 18
  | .vmem => 21
  | .smem => 0
  | _ => 0

abbrev bufTy : (tb : Table) → Fin (tcTables nBuf tb) → BufTy
  | .hbm, ⟨0, _⟩ => ⟨S32768x128, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S256x128, .f32⟩
  | .hbm, ⟨6, _⟩ => ⟨S256x256, .f32⟩
  | .hbm, ⟨7, _⟩ => ⟨S256x256, .f32⟩
  | .hbm, ⟨8, _⟩ => ⟨S128x256, .f32⟩
  | .hbm, ⟨9, _⟩ => ⟨S128x256, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .local _ .vmem, ⟨0, _⟩ => ⟨S1024x128, .f32⟩
  | .local _ .vmem, ⟨1, _⟩ => ⟨S1024x128, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S128x256, .bf16⟩
  | .local _ .vmem, ⟨11, _⟩ => ⟨S256x256, .bf16⟩
  | .local _ .vmem, ⟨12, _⟩ => ⟨S256x256, .bf16⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x128_S128x256_1_0 : S256x128.Transposes [1, 0] S128x256
  bitsLt_bf16_f32 : FTy.bits .bf16 < FTy.bits .f32
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  natLt_1_32 : 1 < 32
  dot_S1024x256_S256x256_S1024x256_1_0_0_1_n_n_wf : DotDims.WF S1024x256 S256x256 S1024x256 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S32768x256.size a
  hwx0_4 : ∀ i : grid0.Coords, EltTy.bits .f32 = 32 ∨ (Rect.block (s := S32768x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S32768x256.size a
  hwx0_8 : ∀ i : grid0.Coords, EltTy.bits .f32 = 32 ∨ (Rect.block (s := S32768x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S32768x256.size a
  hwx0_9 : ∀ i : grid0.Coords, EltTy.bits .f32 = 32 ∨ (Rect.block (s := S32768x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S32768x256.size a
  hwx0_10 : ∀ i : grid0.Coords, EltTy.bits .f32 = 32 ∨ (Rect.block (s := S32768x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S32768x256.size a
  hwx0_11 : ∀ i : grid0.Coords, EltTy.bits .f32 = 32 ∨ (Rect.block (s := S32768x256) S1024x256.size (cc0_transform_11 i) (hinb0_11 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_3) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x256 : Shape := ⟨2, ![32768, 256]⟩
abbrev S256x128 : Shape := ⟨2, ![256, 128]⟩
abbrev S256x256 : Shape := ⟨2, ![256, 256]⟩
abbrev S_ : Shape := ⟨0, ![]⟩
abbrev S128x256 : Shape := ⟨2, ![128, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S256x128, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S256x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S_, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .i1⟩
  | .hbm, ⟨29, _⟩ => ⟨S32768x256, .f32⟩
  | .hbm, ⟨30, _⟩ => ⟨S_, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S_, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S128x256, .f32⟩
  | .hbm, ⟨39, _⟩ => ⟨S32768x256, .f32⟩
  | .hbm, ⟨40, _⟩ => ⟨S32768x256, .f32⟩
  | .hbm, ⟨41, _⟩ => ⟨S256x256, .f32⟩
  | .hbm, ⟨42, _⟩ => ⟨S32768x256, .f32⟩
  | .hbm, ⟨43, _⟩ => ⟨S32768x256, .f32⟩
  | .hbm, ⟨44, _⟩ => ⟨S_, .f32⟩
  | .hbm, ⟨45, _⟩ => ⟨S32768x256, .f32⟩
  | .hbm, ⟨46, _⟩ => ⟨S32768x256, .i1⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S32768x256, .f32⟩
  | .hbm, ⟨54, _⟩ => ⟨S_, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S_, .f32⟩
  | .hbm, ⟨59, _⟩ => ⟨S32768x256, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S_, .f32⟩
  | .hbm, ⟨67, _⟩ => ⟨S32768x256, .f32⟩
  | .hbm, ⟨68, _⟩ => ⟨S32768x256, .f32⟩
  | .hbm, ⟨69, _⟩ => ⟨S32768x256, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  transposes_S256x256_S256x256_1_0 : S256x256.Transposes [1, 0] S256x256
  transposes_S256x128_S128x256_1_0 : S256x128.Transposes [1, 0] S128x256
  dot_S32768x256_S256x256_S32768x256_1_0_0_1_n_n_wf : DotDims.WF S32768x256 S256x256 S32768x256 [1] [0] [0] [1] [] []
  dot_S32768x128_S128x256_S32768x256_1_0_0_1_n_n_wf : DotDims.WF S32768x128 S128x256 S32768x256 [1] [0] [0] [1] [] []

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf

class Facts : Prop extends Facts₀ where

variable [Facts]
-- ==== Proof.Spec.lean ====
/-
  One step of a leaky integrate-and-fire cell with coupled compartments and a refractory counter,
  written as functions of extended reals, entry by entry.

  With `d = ∑ₖ v[b,k]·g[h,k]` (row `b` of the membrane potentials against row `h` of the coupling
  matrix), `dx = ∑ₖ x[b,k]·wᵢ[h,k]` and `dz = ∑ₖ z[b,k]·wᵣ[h,k]`:

    decayed   = v + (1/10·((0 − v) + i) + d)
    fired     = [decayed − 1 > 0]
    refr      = [ρ > 0]
    z'        = (1 − refr)·fired
    v'        = (1 − refr)·((1 − fired)·decayed + fired·0) + refr·v
    i'        = ((i + (−1/5)·i) + dx) + dz
    ρ'        = (1 − z')·max (ρ − refr) 0 + z'·5

  where `[P]` is the number 1 when `P` holds and 0 otherwise, and the five constants are the f32 words
  both programs print (the words nearest 1/10 and −1/5 among them): they are kept as words, the same
  on both sides, and never evaluated. No law of arithmetic beyond the shape of these expressions is
  used, so nothing here needs the entries to be finite.
-/
import Idealize.ShloMosaic.PureOps.Ideal
import Idealize.ShloMosaic.Lib.ValueIdx

noncomputable section

open scoped BigOperators

namespace Cert.Lif

open Idealize.ShloMosaic Idealize.ShloMosaic.ValueIdx

/-! ## The constants, as the words both programs print -/

abbrev zeroW : EReal := Ideal.ofBits .f32 0x00000000#32
abbrev tenthW : EReal := Ideal.ofBits .f32 0x3DCCCCCD#32
abbrev negFifthW : EReal := Ideal.ofBits .f32 0xBE4CCCCD#32
abbrev oneW : EReal := Ideal.ofBits .f32 0x3F800000#32
abbrev fiveW : EReal := Ideal.ofBits .f32 0x40A00000#32

/-! ## One entry -/

/-- `[x > 0]`: the comparison's bit read as the number 0 or 1. -/
def above (x : EReal) : EReal := (((Ideal.cmp .ogt x zeroW).toNat : ℝ) : EReal)

/-- The membrane potential after the leak and the coupling term `d`. -/
def decayed (v i d : EReal) : EReal := v + (tenthW * ((zeroW - v) + i) + d)

/-- Whether the decayed potential crosses the threshold 1. -/
def fired (v i d : EReal) : EReal := above (decayed v i d - oneW)

/-- The spike output: a cell in its refractory period does not spike. -/
def spikeOut (v i rho d : EReal) : EReal := (oneW - above rho) * fired v i d

/-- The new membrane potential: reset on a spike, held during the refractory period. -/
def membraneOut (v i rho d : EReal) : EReal :=
  (oneW - above rho) * ((oneW - fired v i d) * decayed v i d + fired v i d * zeroW) + above rho * v

/-- The new synaptic current: its own decay plus the input and recurrent drives. -/
def currentOut (i dx dz : EReal) : EReal := ((i + negFifthW * i) + dx) + dz

/-- The new refractory counter: counted down to zero, set to 5 on a spike. -/
def refracOut (v i rho d : EReal) : EReal :=
  (oneW - spikeOut v i rho d) * max (rho - above rho) zeroW + spikeOut v i rho d * fiveW

/-! ## The drives: a row of activations against a row of weights -/

/-- `∑ₖ A[b,k]·W[h,k]`: the product of `A` with the transpose of `W`, at entry `(b, h)`. -/
def rowDot {B K H : Nat} (A : (⟨2, ![B, K]⟩ : Shape).Idx → EReal) (W : (⟨2, ![H, K]⟩ : Shape).Idx → EReal)
    (b : Fin B) (h : Fin H) : EReal :=
  ∑ k : Fin K, A (ix2 b k) * W (ix2 h k)

/-! ## The four result arrays over the literal shapes -/

abbrev Act : Shape := ⟨2, ![32768, 256]⟩
abbrev Inp : Shape := ⟨2, ![32768, 128]⟩
abbrev WInp : Shape := ⟨2, ![256, 128]⟩
abbrev WRec : Shape := ⟨2, ![256, 256]⟩

/-- The spikes, entry `(b, h)`. -/
def spikeArr (V I Rho : Act.Idx → EReal) (G : WRec.Idx → EReal) : Act.Idx → EReal := fun j =>
  spikeOut (V j) (I j) (Rho j) (rowDot V G (j 0) (j 1))

/-- The membrane potentials. -/
def membraneArr (V I Rho : Act.Idx → EReal) (G : WRec.Idx → EReal) : Act.Idx → EReal := fun j =>
  membraneOut (V j) (I j) (Rho j) (rowDot V G (j 0) (j 1))

/-- The synaptic currents. -/
def currentArr (X : Inp.Idx → EReal) (Z I : Act.Idx → EReal) (Wi : WInp.Idx → EReal) (Wr : WRec.Idx → EReal) :
    Act.Idx → EReal := fun j =>
  currentOut (I j) (rowDot X Wi (j 0) (j 1)) (rowDot Z Wr (j 0) (j 1))

/-- The refractory counters. -/
def refracArr (V I Rho : Act.Idx → EReal) (G : WRec.Idx → EReal) : Act.Idx → EReal := fun j =>
  refracOut (V j) (I j) (Rho j) (rowDot V G (j 0) (j 1))

end Cert.Lif

end
-- ==== Proof.ReferenceEntries.lean ====
/-
  The reference program, read one entry at a time: each stage of its run at entry `(b, h)` is the
  matching function of the specification, and so its four result arrays are the specification's.

  The only step that is not a reading of one operation is the product with a transposed weight matrix:
  `(A · Wᵀ)[b,h]` is the sum over `k` of `A[b,k] · Wᵀ[k,h]`, and `Wᵀ[k,h] = W[h,k]`, which is the
  specification's row-against-row sum.
-/
import proofs.«138688_j40913858462199_1_alg».proof.Proof.Gen.ReferenceIdeal.Read
import proofs.«138688_j40913858462199_1_alg».proof.Proof.Spec

noncomputable section

open scoped BigOperators

namespace Cert.Lif.Ref

open Cert.ReferenceIdeal Cert.ReferenceIdeal.Gen Cert.ReferenceIdeal.Read Idealize.ShloMosaic Idealize.ShloMosaic.ValueIdx Cert.Lif

/-! ## The operand entries of the three products -/

theorem left_act (b : Fin 32768) (h k : Fin 256) : lidx_main_v6 (ix2 b h) k = ix2 b k :=
  funext fun a => Fin.ext (by match a with | ⟨0, _⟩ => rfl | ⟨1, _⟩ => rfl)
theorem right_coupling (b : Fin 32768) (h k : Fin 256) : idx_main_v5 (ridx_main_v6 (ix2 b h) k) = ix2 h k :=
  funext fun a => Fin.ext (by match a with | ⟨0, _⟩ => rfl | ⟨1, _⟩ => rfl)
theorem left_input (b : Fin 32768) (h : Fin 256) (k : Fin 128) : lidx_main_v24 (ix2 b h) k = ix2 b k :=
  funext fun a => Fin.ext (by match a with | ⟨0, _⟩ => rfl | ⟨1, _⟩ => rfl)
theorem right_input (b : Fin 32768) (h : Fin 256) (k : Fin 128) : idx_main_v23 (ridx_main_v24 (ix2 b h) k) = ix2 h k :=
  funext fun a => Fin.ext (by match a with | ⟨0, _⟩ => rfl | ⟨1, _⟩ => rfl)
theorem left_spikes (b : Fin 32768) (h k : Fin 256) : lidx_main_v27 (ix2 b h) k = ix2 b k :=
  funext fun a => Fin.ext (by match a with | ⟨0, _⟩ => rfl | ⟨1, _⟩ => rfl)
theorem right_recurrent (b : Fin 32768) (h k : Fin 256) : idx_main_v26 (ridx_main_v27 (ix2 b h) k) = ix2 h k :=
  funext fun a => Fin.ext (by match a with | ⟨0, _⟩ => rfl | ⟨1, _⟩ => rfl)

variable (X : Inp.Idx → EReal) (Z V I Rho : Act.Idx → EReal) (Wi : WInp.Idx → EReal) (Wr G : WRec.Idx → EReal)

/-- The coupling term: the potentials times the transposed coupling matrix. -/
theorem coupling_at (b : Fin 32768) (h : Fin 256) :
    val_main_v6 (F := Ideal) V G (ix2 b h) = rowDot V G b h := by
  rw [val_main_v6_apply]
  simp only [val_main_v5_apply, left_act, right_coupling]
  rfl

/-- The input drive. -/
theorem input_at (b : Fin 32768) (h : Fin 256) :
    val_main_v24 (F := Ideal) X Wi (ix2 b h) = rowDot X Wi b h := by
  rw [val_main_v24_apply]
  simp only [val_main_v23_apply, left_input, right_input]
  rfl

/-- The recurrent drive. -/
theorem recurrent_at (b : Fin 32768) (h : Fin 256) :
    val_main_v27 (F := Ideal) Z Wr (ix2 b h) = rowDot Z Wr b h := by
  rw [val_main_v27_apply]
  simp only [val_main_v26_apply, left_spikes, right_recurrent]
  rfl

/-- The refractory indicator `[ρ > 0]`. -/
theorem refr_at (j : Act.Idx) : val_main_v31 (F := Ideal) Rho j = above (Rho j) := by
  rw [val_main_v31_apply, val_main_v30_apply, val_main_v29_apply, val_main_cst_6_apply]
  rfl

/-- The decayed potential. -/
theorem decayed_at (b : Fin 32768) (h : Fin 256) :
    val_main_v8 (F := Ideal) V I G (ix2 b h) = decayed (V (ix2 b h)) (I (ix2 b h)) (rowDot V G b h) := by
  rw [val_main_v8_apply, val_main_v7_apply, coupling_at, val_main_v4_apply, val_main_v3_apply, val_main_cst_0_apply,
    val_main_v2_apply, val_main_v1_apply, val_main_v0_apply, val_main_cst_apply]
  rfl

/-- The threshold indicator. -/
theorem fired_at (b : Fin 32768) (h : Fin 256) :
    val_main_v16 (F := Ideal) V I G (ix2 b h) = fired (V (ix2 b h)) (I (ix2 b h)) (rowDot V G b h) := by
  rw [val_main_v16_apply, val_main_v15_apply, val_main_v13_apply, decayed_at, val_main_v12_apply, val_main_cst_2_apply,
    val_main_v14_apply, val_main_cst_3_apply]
  rfl

/-- The spikes. -/
theorem spike_at (b : Fin 32768) (h : Fin 256) :
    val_main_v39 (F := Ideal) V I Rho G (ix2 b h) = spikeOut (V (ix2 b h)) (I (ix2 b h)) (Rho (ix2 b h)) (rowDot V G b h) := by
  rw [val_main_v39_apply, val_main_v38_apply, val_main_v37_apply, val_main_cst_8_apply, refr_at, fired_at]
  rfl

/-- The new potentials. -/
theorem membrane_at (b : Fin 32768) (h : Fin 256) :
    val_main_v36 (F := Ideal) V I Rho G (ix2 b h)
      = membraneOut (V (ix2 b h)) (I (ix2 b h)) (Rho (ix2 b h)) (rowDot V G b h) := by
  rw [val_main_v36_apply, val_main_v34_apply, val_main_v33_apply, val_main_v32_apply, val_main_cst_7_apply, refr_at,
    val_main_v22_apply, val_main_v19_apply, val_main_v18_apply, val_main_v17_apply, val_main_cst_4_apply, fired_at,
    decayed_at, val_main_v21_apply, fired_at, val_main_v20_apply, val_main_cst_5_apply, val_main_v35_apply, refr_at]
  rfl

/-- The new currents. -/
theorem current_at (b : Fin 32768) (h : Fin 256) :
    val_main_v28 (F := Ideal) X Z I Wi Wr (ix2 b h)
      = currentOut (I (ix2 b h)) (rowDot X Wi b h) (rowDot Z Wr b h) := by
  rw [val_main_v28_apply, val_main_v25_apply, val_main_v11_apply, val_main_v10_apply, val_main_v9_apply,
    val_main_cst_1_apply, input_at, recurrent_at]
  rfl

/-- The new refractory counters. -/
theorem refrac_at (b : Fin 32768) (h : Fin 256) :
    val_main_v47 (F := Ideal) V I Rho G (ix2 b h)
      = refracOut (V (ix2 b h)) (I (ix2 b h)) (Rho (ix2 b h)) (rowDot V G b h) := by
  rw [val_main_v47_apply, val_main_v44_apply, val_main_v41_apply, val_main_v40_apply, val_main_cst_9_apply, spike_at,
    val_main_v43_apply, val_main_v42_apply, refr_at, val_main_call0_v0_apply, val_main_call0_cst_apply,
    val_main_v46_apply, spike_at, val_main_v45_apply, val_main_cst_10_apply]
  rfl

/-! ## The four result arrays -/

theorem spikes_eq : val_main_v39 (F := Ideal) V I Rho G = spikeArr V I Rho G := by
  funext j
  obtain ⟨b, h, rfl⟩ : ∃ (b : Fin 32768) (h : Fin 256), j = ix2 b h := ⟨j 0, j 1, eq_ix2 j⟩
  exact spike_at V I Rho G b h

theorem membrane_eq : val_main_v36 (F := Ideal) V I Rho G = membraneArr V I Rho G := by
  funext j
  obtain ⟨b, h, rfl⟩ : ∃ (b : Fin 32768) (h : Fin 256), j = ix2 b h := ⟨j 0, j 1, eq_ix2 j⟩
  exact membrane_at V I Rho G b h

theorem current_eq : val_main_v28 (F := Ideal) X Z I Wi Wr = currentArr X Z I Wi Wr := by
  funext j
  obtain ⟨b, h, rfl⟩ : ∃ (b : Fin 32768) (h : Fin 256), j = ix2 b h := ⟨j 0, j 1, eq_ix2 j⟩
  exact current_at X Z I Wi Wr b h

theorem refrac_eq : val_main_v47 (F := Ideal) V I Rho G = refracArr V I Rho G := by
  funext j
  obtain ⟨b, h, rfl⟩ : ∃ (b : Fin 32768) (h : Fin 256), j = ix2 b h := ⟨j 0, j 1, eq_ix2 j⟩
  exact refrac_at V I Rho G b h

end Cert.Lif.Ref

end
-- ==== Proof.KernelEntries.lean ====
/-
  The kernel's body, read one entry at a time. The body works on a block of 1024 rows: it loads the
  rows' inputs, state and the three (already transposed) weight matrices, and stores four blocks. Each
  stored value at entry `(p, q)` of the block is the specification's function of the loaded entries,
  with the row-against-column sums `∑ₖ A[p,k]·Wᵀ[k,q]` as the drives.

  Two readings are not of a single pointwise operation. A matrix product into a zero accumulator is the
  plain sum over the contracted index. A comparison bit widened to a word and converted as a signed
  integer is the bit converted unsigned: both are the number 0 or 1. The narrowing of the matrix
  operands to bfloat16 is the identity on extended reals.
-/
import proofs.«138688_j40913858462199_1_alg».proof.Proof.Gen.KernelIdeal.Skeleton
import proofs.«138688_j40913858462199_1_alg».proof.Proof.Spec
import Idealize.ShloMosaic.Lib.Pipeline.Value
import Idealize.ShloMosaic.Lib.KernelVsHost
import Idealize.ShloMosaic.PureOps.Ideal.Laws

noncomputable section

open scoped BigOperators

namespace Cert.Lif.Ker

open Cert.KernelIdeal Cert.KernelIdeal.Gen Idealize.ShloMosaic Idealize.ShloMosaic.ValueIdx Cert.Lif

/-- `∑ₖ A[b,k]·Wᵀ[k,h]`: a row of `A` against a column of an already transposed weight matrix. -/
def colDot {B K H : Nat} (A : (⟨2, ![B, K]⟩ : Shape).Idx → EReal) (Wt : (⟨2, ![K, H]⟩ : Shape).Idx → EReal)
    (b : Fin B) (h : Fin H) : EReal :=
  ∑ k : Fin K, A (ix2 b k) * Wt (ix2 k h)

/-! ## The two contractions: which operand entries meet at output entry `(p, q)` and contraction index `k` -/

theorem lhsRec_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsRec_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsRec_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsRec_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

theorem lhsInp_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhsInp_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhsInp_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhsInp_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A block of 256-wide rows times a 256×256 transposed weight matrix, into zero: the row-against-column sum. -/
theorem contractionRec_at (a : FVec Ideal S1024x256 .f32) (w : FVec Ideal S256x256 .bf16) (hb : FTy.bits .bf16 < FTy.bits .f32)
    (hc : S256x256.ShapeCasts S256x256) (p : Fin 1024) (q : Fin 256) :
    matmul dot_S1024x256_S256x256_S1024x256_1_0_0_1_n_n none (φ₁ := .bf16) (φ₂ := .bf16) (truncf .bf16 a hb) (shapeCast S256x256 w hc)
        (constant (F := Ideal) S1024x256 .f32 0x00000000#32) (ix2 p q)
      = colDot a w p q := by
  rw [shapeCast_self]
  unfold colDot
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhsRec_0 _ _
    | ⟨1, _⟩ => exact (lhsRec_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhsRec_0 _ _).trans hk
    | ⟨1, _⟩ => exact rhsRec_1 _ _)
  rw [el, er]
  rfl

/-- A block of 128-wide input rows times the 128×256 transposed input weights, into zero. -/
theorem contractionInp_at (a : FVec Ideal S1024x128 .f32) (w : FVec Ideal S128x256 .bf16) (hb : FTy.bits .bf16 < FTy.bits .f32)
    (hc : S128x256.ShapeCasts S128x256) (p : Fin 1024) (q : Fin 256) :
    matmul dot_S1024x128_S128x256_S1024x256_1_0_0_1_n_n none (φ₁ := .bf16) (φ₂ := .bf16) (truncf .bf16 a hb) (shapeCast S128x256 w hc)
        (constant (F := Ideal) S1024x256 .f32 0x00000000#32) (ix2 p q)
      = colDot a w p q := by
  rw [shapeCast_self]
  unfold colDot
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun a => Fin.ext (by
    match a with
    | ⟨0, _⟩ => exact lhsInp_0 _ _
    | ⟨1, _⟩ => exact (lhsInp_1 _ _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun a => Fin.ext (by
    match a with
    | ⟨0, _⟩ => exact (rhsInp_0 _ _).trans hk
    | ⟨1, _⟩ => exact rhsInp_1 _ _)
  rw [el, er]
  rfl

/-! ## The stored values at an entry of the block -/

variable (xb : Vec Ideal S1024x128 .f32) (zb vb ib rb : Vec Ideal S1024x256 .f32)
  (iwt : Vec Ideal S128x256 .bf16) (rwt gct : Vec Ideal S256x256 .bf16)

/-- The refractory indicator. -/
theorem refr_blk (j : S1024x256.Idx) : k0_pay2 (F := Ideal) rb j = above (rb j) := by
  simp only [k0_pay2, sitofp_extui_eq_uitofp]
  rfl

/-- The decayed potential. -/
theorem decayed_blk (p : Fin 1024) (q : Fin 256) :
    k0_pay8 (F := Ideal) vb ib gct (ix2 p q) = decayed (vb (ix2 p q)) (ib (ix2 p q)) (colDot vb gct p q) := by
  simp only [k0_pay8]
  rw [addf_apply, addf_apply, contractionRec_at]
  rfl

/-- The threshold indicator. -/
theorem fired_blk (p : Fin 1024) (q : Fin 256) :
    k0_pay10 (F := Ideal) vb ib gct (ix2 p q) = fired (vb (ix2 p q)) (ib (ix2 p q)) (colDot vb gct p q) := by
  simp only [k0_pay10, sitofp_extui_eq_uitofp]
  show above (k0_pay8 (F := Ideal) vb ib gct (ix2 p q) - oneW) = _
  rw [decayed_blk]
  rfl

/-- The spikes. -/
theorem spike_blk (p : Fin 1024) (q : Fin 256) :
    k0_pay4 (F := Ideal) rb (k0_pay10 (F := Ideal) vb ib gct) (ix2 p q)
      = spikeOut (vb (ix2 p q)) (ib (ix2 p q)) (rb (ix2 p q)) (colDot vb gct p q) := by
  show (oneW - k0_pay2 (F := Ideal) rb (ix2 p q)) * k0_pay10 (F := Ideal) vb ib gct (ix2 p q) = _
  rw [refr_blk, fired_blk]
  rfl

/-- The new potentials. -/
theorem membrane_blk (p : Fin 1024) (q : Fin 256) :
    k0_pay3 (F := Ideal) vb rb (k0_pay8 (F := Ideal) vb ib gct) (k0_pay10 (F := Ideal) vb ib gct) (k0_pay11 (F := Ideal)) (ix2 p q)
      = membraneOut (vb (ix2 p q)) (ib (ix2 p q)) (rb (ix2 p q)) (colDot vb gct p q) := by
  show (oneW - k0_pay2 (F := Ideal) rb (ix2 p q))
        * ((oneW - k0_pay10 (F := Ideal) vb ib gct (ix2 p q)) * k0_pay8 (F := Ideal) vb ib gct (ix2 p q)
            + k0_pay10 (F := Ideal) vb ib gct (ix2 p q) * zeroW)
      + k0_pay2 (F := Ideal) rb (ix2 p q) * vb (ix2 p q) = _
  rw [refr_blk, fired_blk, decayed_blk]
  rfl

/-- The input drive. -/
theorem input_blk (p : Fin 1024) (q : Fin 256) : k0_pay6 (F := Ideal) xb iwt (ix2 p q) = colDot xb iwt p q := by
  simp only [k0_pay6]
  exact contractionInp_at xb iwt _ _ p q

/-- The recurrent drive. -/
theorem recurrent_blk (p : Fin 1024) (q : Fin 256) : k0_pay7 (F := Ideal) zb rwt (ix2 p q) = colDot zb rwt p q := by
  simp only [k0_pay7]
  exact contractionRec_at zb rwt _ _ p q

/-- The new currents. -/
theorem current_blk (p : Fin 1024) (q : Fin 256) :
    k0_pay1 (F := Ideal) (k0_pay6 (F := Ideal) xb iwt) (k0_pay7 (F := Ideal) zb rwt) (k0_pay9 (F := Ideal) ib) (ix2 p q)
      = currentOut (ib (ix2 p q)) (colDot xb iwt p q) (colDot zb rwt p q) := by
  show ((ib (ix2 p q) + negFifthW * ib (ix2 p q)) + k0_pay6 (F := Ideal) xb iwt (ix2 p q))
      + k0_pay7 (F := Ideal) zb rwt (ix2 p q) = _
  rw [input_blk, recurrent_blk]
  rfl

/-- The new refractory counters. -/
theorem refrac_blk (p : Fin 1024) (q : Fin 256) :
    k0_pay5 (F := Ideal) rb (k0_pay10 (F := Ideal) vb ib gct) (ix2 p q)
      = refracOut (vb (ix2 p q)) (ib (ix2 p q)) (rb (ix2 p q)) (colDot vb gct p q) := by
  show (oneW - k0_pay4 (F := Ideal) rb (k0_pay10 (F := Ideal) vb ib gct) (ix2 p q))
        * max (rb (ix2 p q) - k0_pay2 (F := Ideal) rb (ix2 p q)) zeroW
      + k0_pay4 (F := Ideal) rb (k0_pay10 (F := Ideal) vb ib gct) (ix2 p q) * fiveW = _
  rw [spike_blk, refr_blk]
  rfl

end Cert.Lif.Ker

end
-- ==== Proof.KernelArrays.lean ====
/-
  From blocks to arrays. The grid has 32 points; point `t` stages rows `1024·t … 1024·t + 1023` of the
  five per-row arrays and the whole of the three transposed weight matrices, and writes the same rows of
  the four results back. So entry `(p, q)` of a block at point `t` is entry `(1024·t + p, q)` of its
  array; the staged weight matrices are the transposes the program's first operations make of the
  weight arguments, `Wᵀ[k,q] = W[q,k]`, so a row-against-column sum over the staged matrix is the
  specification's row-against-row sum over the argument. What point `t` writes back is therefore
  block `t` of the specification's array; the 32 blocks tile the 32768 rows (row `r` lies in block
  `r / 1024`), so each result array is the specification's.
-/
import proofs.«138688_j40913858462199_1_alg».proof.Proof.Gen.KernelIdeal.Value
import proofs.«138688_j40913858462199_1_alg».proof.Proof.KernelEntries
import Idealize.ShloMosaic.Lib.StableHlo.Run
import Idealize.ShloMosaic.Lib.Pipeline.Value

set_option maxRecDepth 16384

noncomputable section

open scoped BigOperators

namespace Cert.Lif.Arr

open Cert.KernelIdeal Cert.KernelIdeal.Gen Idealize.ShloMosaic Idealize.ShloMosaic.TcCoe Idealize.SL.Sem
open Idealize.ShloMosaic.StableHlo Idealize.ShloMosaic.ValueIdx Cert.Lif Cert.Lif.Ker
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The grid and the index maps -/

theorem point_lt (t : Fin cfg0.N) : t.val < 32 := by
  have h := t.isLt
  have e : cfg0.N = 32 := N_0
  omega

/-- The array row that row `p` of the block at point `t` is. -/
def row (t : Fin cfg0.N) (p : Fin 1024) : Fin 32768 :=
  ⟨t.val * 1024 + p.val, by have := point_lt t; have := p.isLt; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-! ## Where a block's entry sits in its array -/

theorem emb0 (t : Fin cfg0.N) (p : Fin 1024) (q : Fin 128) :
    ((cfg0.win 0).blk t).view.emb (ix2 p q) = ix2 (row t p) q := by
  funext a; apply Fin.ext
  match a with
  | ⟨0, _⟩ => show win0_0.index t (0 : Fin 2) * 1024 + 1 * p.val = t.val * 1024 + p.val; rw [(idx0 t).1]; omega
  | ⟨1, _⟩ => show win0_0.index t (1 : Fin 2) * 128 + 1 * q.val = q.val; rw [(idx0 t).2]; omega

theorem emb1 (t : Fin cfg0.N) (p : Fin 1024) (q : Fin 256) :
    ((cfg0.win 1).blk t).view.emb (ix2 p q) = ix2 (row t p) q := by
  funext a; apply Fin.ext
  match a with
  | ⟨0, _⟩ => show win0_1.index t (0 : Fin 2) * 1024 + 1 * p.val = t.val * 1024 + p.val; rw [(idx1 t).1]; omega
  | ⟨1, _⟩ => show win0_1.index t (1 : Fin 2) * 256 + 1 * q.val = q.val; rw [(idx1 t).2]; omega

theorem emb2 (t : Fin cfg0.N) (p : Fin 1024) (q : Fin 256) :
    ((cfg0.win 2).blk t).view.emb (ix2 p q) = ix2 (row t p) q := by
  funext a; apply Fin.ext
  match a with
  | ⟨0, _⟩ => show win0_2.index t (0 : Fin 2) * 1024 + 1 * p.val = t.val * 1024 + p.val; rw [(idx2 t).1]; omega
  | ⟨1, _⟩ => show win0_2.index t (1 : Fin 2) * 256 + 1 * q.val = q.val; rw [(idx2 t).2]; omega

theorem emb3 (t : Fin cfg0.N) (p : Fin 1024) (q : Fin 256) :
    ((cfg0.win 3).blk t).view.emb (ix2 p q) = ix2 (row t p) q := by
  funext a; apply Fin.ext
  match a with
  | ⟨0, _⟩ => show win0_3.index t (0 : Fin 2) * 1024 + 1 * p.val = t.val * 1024 + p.val; rw [(idx3 t).1]; omega
  | ⟨1, _⟩ => show win0_3.index t (1 : Fin 2) * 256 + 1 * q.val = q.val; rw [(idx3 t).2]; omega

theorem emb4 (t : Fin cfg0.N) (p : Fin 1024) (q : Fin 256) :
    ((cfg0.win 4).blk t).view.emb (ix2 p q) = ix2 (row t p) q := by
  funext a; apply Fin.ext
  match a with
  | ⟨0, _⟩ => show win0_4.index t (0 : Fin 2) * 1024 + 1 * p.val = t.val * 1024 + p.val; rw [(idx4 t).1]; omega
  | ⟨1, _⟩ => show win0_4.index t (1 : Fin 2) * 256 + 1 * q.val = q.val; rw [(idx4 t).2]; omega

theorem emb8 (t : Fin cfg0.N) (p : Fin 1024) (q : Fin 256) :
    ((cfg0.win 8).blk t).view.emb (ix2 p q) = ix2 (row t p) q := by
  funext a; apply Fin.ext
  match a with
  | ⟨0, _⟩ => show win0_8.index t (0 : Fin 2) * 1024 + 1 * p.val = t.val * 1024 + p.val; rw [(idx8 t).1]; omega
  | ⟨1, _⟩ => show win0_8.index t (1 : Fin 2) * 256 + 1 * q.val = q.val; rw [(idx8 t).2]; omega

theorem emb9 (t : Fin cfg0.N) (p : Fin 1024) (q : Fin 256) :
    ((cfg0.win 9).blk t).view.emb (ix2 p q) = ix2 (row t p) q := by
  funext a; apply Fin.ext
  match a with
  | ⟨0, _⟩ => show win0_9.index t (0 : Fin 2) * 1024 + 1 * p.val = t.val * 1024 + p.val; rw [(idx9 t).1]; omega
  | ⟨1, _⟩ => show win0_9.index t (1 : Fin 2) * 256 + 1 * q.val = q.val; rw [(idx9 t).2]; omega

theorem emb10 (t : Fin cfg0.N) (p : Fin 1024) (q : Fin 256) :
    ((cfg0.win 10).blk t).view.emb (ix2 p q) = ix2 (row t p) q := by
  funext a; apply Fin.ext
  match a with
  | ⟨0, _⟩ => show win0_10.index t (0 : Fin 2) * 1024 + 1 * p.val = t.val * 1024 + p.val; rw [(idx10 t).1]; omega
  | ⟨1, _⟩ => show win0_10.index t (1 : Fin 2) * 256 + 1 * q.val = q.val; rw [(idx10 t).2]; omega

theorem emb11 (t : Fin cfg0.N) (p : Fin 1024) (q : Fin 256) :
    ((cfg0.win 11).blk t).view.emb (ix2 p q) = ix2 (row t p) q := by
  funext a; apply Fin.ext
  match a with
  | ⟨0, _⟩ => show win0_11.index t (0 : Fin 2) * 1024 + 1 * p.val = t.val * 1024 + p.val; rw [(idx11 t).1]; omega
  | ⟨1, _⟩ => show win0_11.index t (1 : Fin 2) * 256 + 1 * q.val = q.val; rw [(idx11 t).2]; omega

theorem emb5 (t : Fin cfg0.N) (k : Fin 128) (q : Fin 256) :
    ((cfg0.win 5).blk t).view.emb (ix2 k q) = ix2 k q := by
  funext a; apply Fin.ext
  match a with
  | ⟨0, _⟩ => show win0_5.index t (0 : Fin 2) * 128 + 1 * k.val = k.val; rw [(idx5 t).1]; omega
  | ⟨1, _⟩ => show win0_5.index t (1 : Fin 2) * 256 + 1 * q.val = q.val; rw [(idx5 t).2]; omega

theorem emb6 (t : Fin cfg0.N) (k : Fin 256) (q : Fin 256) :
    ((cfg0.win 6).blk t).view.emb (ix2 k q) = ix2 k q := by
  funext a; apply Fin.ext
  match a with
  | ⟨0, _⟩ => show win0_6.index t (0 : Fin 2) * 256 + 1 * k.val = k.val; rw [(idx6 t).1]; omega
  | ⟨1, _⟩ => show win0_6.index t (1 : Fin 2) * 256 + 1 * q.val = q.val; rw [(idx6 t).2]; omega

theorem emb7 (t : Fin cfg0.N) (k : Fin 256) (q : Fin 256) :
    ((cfg0.win 7).blk t).view.emb (ix2 k q) = ix2 k q := by
  funext a; apply Fin.ext
  match a with
  | ⟨0, _⟩ => show win0_7.index t (0 : Fin 2) * 256 + 1 * k.val = k.val; rw [(idx7 t).1]; omega
  | ⟨1, _⟩ => show win0_7.index t (1 : Fin 2) * 256 + 1 * q.val = q.val; rw [(idx7 t).2]; omega

/-! ## The staged blocks, read against the arguments -/

abbrev xblk (c : Dev nD) (t : Fin cfg0.N) : Vec Ideal S1024x128 .f32 := iblk m c 0 t
theorem xblk_at (c : Dev nD) (t : Fin cfg0.N) (p : Fin 1024) (q : Fin 128) :
    xblk m c t (ix2 p q) = V m c main_arg0 (ix2 (row t p) q) := by
  show V m c main_arg0 (((cfg0.win 0).blk t).view.emb (ix2 p q)) = _
  rw [emb0]

abbrev zblk (c : Dev nD) (t : Fin cfg0.N) : Vec Ideal S1024x256 .f32 := iblk m c 1 t
theorem zblk_at (c : Dev nD) (t : Fin cfg0.N) (p : Fin 1024) (q : Fin 256) :
    zblk m c t (ix2 p q) = V m c main_arg1 (ix2 (row t p) q) := by
  show V m c main_arg1 (((cfg0.win 1).blk t).view.emb (ix2 p q)) = _
  rw [emb1]

abbrev vblk (c : Dev nD) (t : Fin cfg0.N) : Vec Ideal S1024x256 .f32 := iblk m c 2 t
theorem vblk_at (c : Dev nD) (t : Fin cfg0.N) (p : Fin 1024) (q : Fin 256) :
    vblk m c t (ix2 p q) = V m c main_arg2 (ix2 (row t p) q) := by
  show V m c main_arg2 (((cfg0.win 2).blk t).view.emb (ix2 p q)) = _
  rw [emb2]

abbrev cblk (c : Dev nD) (t : Fin cfg0.N) : Vec Ideal S1024x256 .f32 := iblk m c 3 t
theorem cblk_at (c : Dev nD) (t : Fin cfg0.N) (p : Fin 1024) (q : Fin 256) :
    cblk m c t (ix2 p q) = V m c main_arg3 (ix2 (row t p) q) := by
  show V m c main_arg3 (((cfg0.win 3).blk t).view.emb (ix2 p q)) = _
  rw [emb3]

abbrev rblk (c : Dev nD) (t : Fin cfg0.N) : Vec Ideal S1024x256 .f32 := iblk m c 4 t
theorem rblk_at (c : Dev nD) (t : Fin cfg0.N) (p : Fin 1024) (q : Fin 256) :
    rblk m c t (ix2 p q) = V m c main_arg4 (ix2 (row t p) q) := by
  show V m c main_arg4 (((cfg0.win 4).blk t).view.emb (ix2 p q)) = _
  rw [emb4]

/-- The staged input weights: the transpose the program makes of the argument. -/
theorem staged5_at (c : Dev nD) (k : Fin 128) (q : Fin 256) :
    (V m c main_v1 : S128x256.Idx → EReal) (ix2 k q) = (m ((c : Thread nD τ).loc main_arg5)) (ix2 q k) := by
  have e : @Eq (S128x256.Idx → EReal) (V m c main_v1)
      (truncf (F := Ideal) .bf16 (transpose S128x256 [1, 0] (m ((c : Thread nD τ).loc main_arg5)) Gen.transposes_S256x128_S128x256_1_0) Gen.bitsLt_bf16_f32) := by
    dsimp only [Gen.V, Gen.hostOps0]; after_results
  rw [e]
  show transpose S128x256 [1, 0] (m ((c : Thread nD τ).loc main_arg5)) Gen.transposes_S256x128_S128x256_1_0 (ix2 k q) = _
  exact transpose_apply [1, 0] _ _ (ix2 k q) (ix2 q k) (fun b => match b with
    | ⟨0, _⟩ => rfl
    | ⟨1, _⟩ => rfl)

abbrev iwblk (c : Dev nD) (t : Fin cfg0.N) : Vec Ideal S128x256 .bf16 := iblk m c 5 t
theorem iwblk_at (c : Dev nD) (t : Fin cfg0.N) (k : Fin 128) (q : Fin 256) :
    iwblk m c t (ix2 k q) = (m ((c : Thread nD τ).loc main_arg5)) (ix2 q k) := by
  show (V m c main_v1 : S128x256.Idx → EReal) (((cfg0.win 5).blk t).view.emb (ix2 k q)) = _
  rw [emb5, staged5_at]

/-- The staged recurrent weights: the transpose the program makes of the argument. -/
theorem staged6_at (c : Dev nD) (k : Fin 256) (q : Fin 256) :
    (V m c main_v3 : S256x256.Idx → EReal) (ix2 k q) = (m ((c : Thread nD τ).loc main_arg6)) (ix2 q k) := by
  have e : @Eq (S256x256.Idx → EReal) (V m c main_v3)
      (truncf (F := Ideal) .bf16 (transpose S256x256 [1, 0] (m ((c : Thread nD τ).loc main_arg6)) Gen.transposes_S256x256_S256x256_1_0) Gen.bitsLt_bf16_f32) := by
    dsimp only [Gen.V, Gen.hostOps0]; after_results
  rw [e]
  show transpose S256x256 [1, 0] (m ((c : Thread nD τ).loc main_arg6)) Gen.transposes_S256x256_S256x256_1_0 (ix2 k q) = _
  exact transpose_apply [1, 0] _ _ (ix2 k q) (ix2 q k) (fun b => match b with
    | ⟨0, _⟩ => rfl
    | ⟨1, _⟩ => rfl)

abbrev rwblk (c : Dev nD) (t : Fin cfg0.N) : Vec Ideal S256x256 .bf16 := iblk m c 6 t
theorem rwblk_at (c : Dev nD) (t : Fin cfg0.N) (k : Fin 256) (q : Fin 256) :
    rwblk m c t (ix2 k q) = (m ((c : Thread nD τ).loc main_arg6)) (ix2 q k) := by
  show (V m c main_v3 : S256x256.Idx → EReal) (((cfg0.win 6).blk t).view.emb (ix2 k q)) = _
  rw [emb6, staged6_at]

/-- The staged coupling matrix: the transpose the program makes of the argument. -/
theorem staged7_at (c : Dev nD) (k : Fin 256) (q : Fin 256) :
    (V m c main_v5 : S256x256.Idx → EReal) (ix2 k q) = (m ((c : Thread nD τ).loc main_arg7)) (ix2 q k) := by
  have e : @Eq (S256x256.Idx → EReal) (V m c main_v5)
      (truncf (F := Ideal) .bf16 (transpose S256x256 [1, 0] (m ((c : Thread nD τ).loc main_arg7)) Gen.transposes_S256x256_S256x256_1_0) Gen.bitsLt_bf16_f32) := by
    dsimp only [Gen.V, Gen.hostOps0]; after_results
  rw [e]
  show transpose S256x256 [1, 0] (m ((c : Thread nD τ).loc main_arg7)) Gen.transposes_S256x256_S256x256_1_0 (ix2 k q) = _
  exact transpose_apply [1, 0] _ _ (ix2 k q) (ix2 q k) (fun b => match b with
    | ⟨0, _⟩ => rfl
    | ⟨1, _⟩ => rfl)

abbrev gblk (c : Dev nD) (t : Fin cfg0.N) : Vec Ideal S256x256 .bf16 := iblk m c 7 t
theorem gblk_at (c : Dev nD) (t : Fin cfg0.N) (k : Fin 256) (q : Fin 256) :
    gblk m c t (ix2 k q) = (m ((c : Thread nD τ).loc main_arg7)) (ix2 q k) := by
  show (V m c main_v5 : S256x256.Idx → EReal) (((cfg0.win 7).blk t).view.emb (ix2 k q)) = _
  rw [emb7, staged7_at]

/-! ## The drives of a block are the drives of its rows -/

theorem coupling_drive (c : Dev nD) (t : Fin cfg0.N) (p : Fin 1024) (q : Fin 256) :
    colDot (vblk m c t) (gblk m c t) p q
      = rowDot (B := 32768) (K := 256) (H := 256) (V m c main_arg2) (m ((c : Thread nD τ).loc main_arg7)) (row t p) q := by
  unfold colDot rowDot
  refine Finset.sum_congr rfl fun k _ => ?_
  rw [vblk_at, gblk_at]

theorem input_drive (c : Dev nD) (t : Fin cfg0.N) (p : Fin 1024) (q : Fin 256) :
    colDot (xblk m c t) (iwblk m c t) p q
      = rowDot (B := 32768) (K := 128) (H := 256) (V m c main_arg0) (m ((c : Thread nD τ).loc main_arg5)) (row t p) q := by
  unfold colDot rowDot
  refine Finset.sum_congr rfl fun k _ => ?_
  rw [xblk_at, iwblk_at]

theorem recurrent_drive (c : Dev nD) (t : Fin cfg0.N) (p : Fin 1024) (q : Fin 256) :
    colDot (zblk m c t) (rwblk m c t) p q
      = rowDot (B := 32768) (K := 256) (H := 256) (V m c main_arg1) (m ((c : Thread nD τ).loc main_arg6)) (row t p) q := by
  unfold colDot rowDot
  refine Finset.sum_congr rfl fun k _ => ?_
  rw [zblk_at, rwblk_at]

/-! ## What a point writes back is its block of the specification's array -/

theorem spikes_flushed (c : Dev nD) (t : Fin cfg0.N) :
    (dats m 0 c).flushed 8 t = ((cfg0.win 8).blk t).view.read (Elt Ideal) (spikeArr (V m c main_arg2) (V m c main_arg3) (V m c main_arg4) (m ((c : Thread nD τ).loc main_arg7))) := by
  rw [Cert.KernelIdeal.Value.flushed8]
  unfold out0_8
  rw [View.canon_unit_zero origin]
  simp only [View.ld_unit_zero (S := S1024x256) origin, View.ld_unit_zero (S := S256x256) origin]
  funext y
  obtain ⟨p, q, rfl⟩ : ∃ (p : Fin 1024) (q : Fin 256), y = ix2 p q := ⟨y 0, y 1, eq_ix2 y⟩
  show k0_pay4 (F := Ideal) (rblk m c t) (k0_pay10 (F := Ideal) (vblk m c t) (cblk m c t) (gblk m c t)) (ix2 p q)
      = spikeArr _ _ _ _ (((cfg0.win 8).blk t).view.emb (ix2 p q))
  refine (spike_blk (vb := vblk m c t) (ib := cblk m c t) (rb := rblk m c t) (gct := gblk m c t) p q).trans ?_
  rw [emb8, vblk_at, cblk_at, rblk_at, coupling_drive]
  rfl

theorem membrane_flushed (c : Dev nD) (t : Fin cfg0.N) :
    (dats m 0 c).flushed 9 t = ((cfg0.win 9).blk t).view.read (Elt Ideal) (membraneArr (V m c main_arg2) (V m c main_arg3) (V m c main_arg4) (m ((c : Thread nD τ).loc main_arg7))) := by
  rw [Cert.KernelIdeal.Value.flushed9]
  unfold out0_9
  rw [View.canon_unit_zero origin]
  simp only [View.ld_unit_zero (S := S1024x256) origin, View.ld_unit_zero (S := S256x256) origin]
  funext y
  obtain ⟨p, q, rfl⟩ : ∃ (p : Fin 1024) (q : Fin 256), y = ix2 p q := ⟨y 0, y 1, eq_ix2 y⟩
  show k0_pay3 (F := Ideal) (vblk m c t) (rblk m c t) (k0_pay8 (F := Ideal) (vblk m c t) (cblk m c t) (gblk m c t)) (k0_pay10 (F := Ideal) (vblk m c t) (cblk m c t) (gblk m c t)) (k0_pay11 (F := Ideal)) (ix2 p q)
      = membraneArr _ _ _ _ (((cfg0.win 9).blk t).view.emb (ix2 p q))
  refine (membrane_blk (vb := vblk m c t) (ib := cblk m c t) (rb := rblk m c t) (gct := gblk m c t) p q).trans ?_
  rw [emb9, vblk_at, cblk_at, rblk_at, coupling_drive]
  rfl

theorem current_flushed (c : Dev nD) (t : Fin cfg0.N) :
    (dats m 0 c).flushed 10 t = ((cfg0.win 10).blk t).view.read (Elt Ideal) (currentArr (V m c main_arg0) (V m c main_arg1) (V m c main_arg3) (m ((c : Thread nD τ).loc main_arg5)) (m ((c : Thread nD τ).loc main_arg6))) := by
  rw [Cert.KernelIdeal.Value.flushed10]
  unfold out0_10
  rw [View.canon_unit_zero origin]
  simp only [View.ld_unit_zero (S := S1024x128) origin, View.ld_unit_zero (S := S1024x256) origin, View.ld_unit_zero (S := S128x256) origin, View.ld_unit_zero (S := S256x256) origin]
  funext y
  obtain ⟨p, q, rfl⟩ : ∃ (p : Fin 1024) (q : Fin 256), y = ix2 p q := ⟨y 0, y 1, eq_ix2 y⟩
  show k0_pay1 (F := Ideal) (k0_pay6 (F := Ideal) (xblk m c t) (iwblk m c t)) (k0_pay7 (F := Ideal) (zblk m c t) (rwblk m c t)) (k0_pay9 (F := Ideal) (cblk m c t)) (ix2 p q)
      = currentArr _ _ _ _ _ (((cfg0.win 10).blk t).view.emb (ix2 p q))
  refine (current_blk (xb := xblk m c t) (zb := zblk m c t) (ib := cblk m c t) (iwt := iwblk m c t) (rwt := rwblk m c t) p q).trans ?_
  rw [emb10, cblk_at, input_drive, recurrent_drive]
  rfl

theorem refrac_flushed (c : Dev nD) (t : Fin cfg0.N) :
    (dats m 0 c).flushed 11 t = ((cfg0.win 11).blk t).view.read (Elt Ideal) (refracArr (V m c main_arg2) (V m c main_arg3) (V m c main_arg4) (m ((c : Thread nD τ).loc main_arg7))) := by
  rw [Cert.KernelIdeal.Value.flushed11]
  unfold out0_11
  rw [View.canon_unit_zero origin]
  simp only [View.ld_unit_zero (S := S1024x256) origin, View.ld_unit_zero (S := S256x256) origin]
  funext y
  obtain ⟨p, q, rfl⟩ : ∃ (p : Fin 1024) (q : Fin 256), y = ix2 p q := ⟨y 0, y 1, eq_ix2 y⟩
  show k0_pay5 (F := Ideal) (rblk m c t) (k0_pay10 (F := Ideal) (vblk m c t) (cblk m c t) (gblk m c t)) (ix2 p q)
      = refracArr _ _ _ _ (((cfg0.win 11).blk t).view.emb (ix2 p q))
  refine (refrac_blk (vb := vblk m c t) (ib := cblk m c t) (rb := rblk m c t) (gct := gblk m c t) p q).trans ?_
  rw [emb11, vblk_at, cblk_at, rblk_at, coupling_drive]
  rfl

/-! ## The blocks tile the rows -/

theorem mem_blk8 (t : Fin cfg0.N) (i : S32768x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v6_0).slice (win0_8.rect t)).set ↔ _
  rw [View.set_slice_whole, Rect.mem_set_unit]
  exact Iff.rfl

theorem cover8 (i : S32768x256.Idx) :
    ∃ t : Fin cfg0.N, (cfg0.win 8).flush t = true ∧ i ∈ ((cfg0.win 8).blk t).view.set := by
  have hi0 : (i 0).val < 32768 := (i 0).isLt
  have hi1 : (i 1).val < 256 := (i 1).isLt
  have hN : cfg0.N = 32 := N_0
  have ht : ∃ t : Fin cfg0.N, t.val = (i 0).val / 1024 := ⟨⟨(i 0).val / 1024, by omega⟩, rfl⟩
  obtain ⟨t, ht⟩ := ht
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    rw [(idx8 t).1, ht]; omega
  | ⟨1, _⟩ =>
    show win0_8.index t (1 : Fin 2) * 256 ≤ (i 1).val ∧ (i 1).val < win0_8.index t (1 : Fin 2) * 256 + 256
    rw [(idx8 t).2]; omega

/-- The spikes array after the run. -/
theorem spikes_final (c : Dev nD) :
    (dats m 0 c).arrAt 8 cfg0.N = spikeArr (m ((c : Thread nD τ).loc main_arg2)) (m ((c : Thread nD τ).loc main_arg3)) (m ((c : Thread nD τ).loc main_arg4)) (m ((c : Thread nD τ).loc main_arg7)) := by
  rw [(dats m 0 c).arrAt_eq_of_cover 8 _ (fun t _ => spikes_flushed m c t) cover8, V_main_arg2, V_main_arg3, V_main_arg4]

theorem mem_blk9 (t : Fin cfg0.N) (i : S32768x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v6_1).slice (win0_9.rect t)).set ↔ _
  rw [View.set_slice_whole, Rect.mem_set_unit]
  exact Iff.rfl

theorem cover9 (i : S32768x256.Idx) :
    ∃ t : Fin cfg0.N, (cfg0.win 9).flush t = true ∧ i ∈ ((cfg0.win 9).blk t).view.set := by
  have hi0 : (i 0).val < 32768 := (i 0).isLt
  have hi1 : (i 1).val < 256 := (i 1).isLt
  have hN : cfg0.N = 32 := N_0
  have ht : ∃ t : Fin cfg0.N, t.val = (i 0).val / 1024 := ⟨⟨(i 0).val / 1024, by omega⟩, rfl⟩
  obtain ⟨t, ht⟩ := ht
  refine ⟨t, flush0_9 t, ?_⟩
  rw [mem_blk9]
  intro a
  match a with
  | ⟨0, _⟩ =>
    show win0_9.index t (0 : Fin 2) * 1024 ≤ (i 0).val ∧ (i 0).val < win0_9.index t (0 : Fin 2) * 1024 + 1024
    rw [(idx9 t).1, ht]; omega
  | ⟨1, _⟩ =>
    show win0_9.index t (1 : Fin 2) * 256 ≤ (i 1).val ∧ (i 1).val < win0_9.index t (1 : Fin 2) * 256 + 256
    rw [(idx9 t).2]; omega

/-- The membrane array after the run. -/
theorem membrane_final (c : Dev nD) :
    (dats m 0 c).arrAt 9 cfg0.N = membraneArr (m ((c : Thread nD τ).loc main_arg2)) (m ((c : Thread nD τ).loc main_arg3)) (m ((c : Thread nD τ).loc main_arg4)) (m ((c : Thread nD τ).loc main_arg7)) := by
  rw [(dats m 0 c).arrAt_eq_of_cover 9 _ (fun t _ => membrane_flushed m c t) cover9, V_main_arg2, V_main_arg3, V_main_arg4]

theorem mem_blk10 (t : Fin cfg0.N) (i : S32768x256.Idx) :
    i ∈ ((cfg0.win 10).blk t).view.set ↔ ∀ a : Fin 2, win0_10.index t a * S1024x256.size a ≤ (i a).val
      ∧ (i a).val < win0_10.index t a * S1024x256.size a + S1024x256.size a := by
  show i ∈ ((View.whole main_v6_2).slice (win0_10.rect t)).set ↔ _
  rw [View.set_slice_whole, Rect.mem_set_unit]
  exact Iff.rfl

theorem cover10 (i : S32768x256.Idx) :
    ∃ t : Fin cfg0.N, (cfg0.win 10).flush t = true ∧ i ∈ ((cfg0.win 10).blk t).view.set := by
  have hi0 : (i 0).val < 32768 := (i 0).isLt
  have hi1 : (i 1).val < 256 := (i 1).isLt
  have hN : cfg0.N = 32 := N_0
  have ht : ∃ t : Fin cfg0.N, t.val = (i 0).val / 1024 := ⟨⟨(i 0).val / 1024, by omega⟩, rfl⟩
  obtain ⟨t, ht⟩ := ht
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    rw [(idx10 t).1, ht]; omega
  | ⟨1, _⟩ =>
    show win0_10.index t (1 : Fin 2) * 256 ≤ (i 1).val ∧ (i 1).val < win0_10.index t (1 : Fin 2) * 256 + 256
    rw [(idx10 t).2]; omega

/-- The current array after the run. -/
theorem current_final (c : Dev nD) :
    (dats m 0 c).arrAt 10 cfg0.N = currentArr (m ((c : Thread nD τ).loc main_arg0)) (m ((c : Thread nD τ).loc main_arg1)) (m ((c : Thread nD τ).loc main_arg3)) (m ((c : Thread nD τ).loc main_arg5)) (m ((c : Thread nD τ).loc main_arg6)) := by
  rw [(dats m 0 c).arrAt_eq_of_cover 10 _ (fun t _ => current_flushed m c t) cover10, V_main_arg0, V_main_arg1, V_main_arg3]

theorem mem_blk11 (t : Fin cfg0.N) (i : S32768x256.Idx) :
    i ∈ ((cfg0.win 11).blk t).view.set ↔ ∀ a : Fin 2, win0_11.index t a * S1024x256.size a ≤ (i a).val
      ∧ (i a).val < win0_11.index t a * S1024x256.size a + S1024x256.size a := by
  show i ∈ ((View.whole main_v6_3).slice (win0_11.rect t)).set ↔ _
  rw [View.set_slice_whole, Rect.mem_set_unit]
  exact Iff.rfl

theorem cover11 (i : S32768x256.Idx) :
    ∃ t : Fin cfg0.N, (cfg0.win 11).flush t = true ∧ i ∈ ((cfg0.win 11).blk t).view.set := by
  have hi0 : (i 0).val < 32768 := (i 0).isLt
  have hi1 : (i 1).val < 256 := (i 1).isLt
  have hN : cfg0.N = 32 := N_0
  have ht : ∃ t : Fin cfg0.N, t.val = (i 0).val / 1024 := ⟨⟨(i 0).val / 1024, by omega⟩, rfl⟩
  obtain ⟨t, ht⟩ := ht
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    rw [(idx11 t).1, ht]; omega
  | ⟨1, _⟩ =>
    show win0_11.index t (1 : Fin 2) * 256 ≤ (i 1).val ∧ (i 1).val < win0_11.index t (1 : Fin 2) * 256 + 256
    rw [(idx11 t).2]; omega

/-- The refrac array after the run. -/
theorem refrac_final (c : Dev nD) :
    (dats m 0 c).arrAt 11 cfg0.N = refracArr (m ((c : Thread nD τ).loc main_arg2)) (m ((c : Thread nD τ).loc main_arg3)) (m ((c : Thread nD τ).loc main_arg4)) (m ((c : Thread nD τ).loc main_arg7)) := by
  rw [(dats m 0 c).arrAt_eq_of_cover 11 _ (fun t _ => refrac_flushed m c t) cover11, V_main_arg2, V_main_arg3, V_main_arg4]

/-! ## The kernel's run, read -/

theorem run : θ_run defs (onTc (τ := τ) (main (F := Ideal))) ⟨m, fun _ => 0, ρ⟩ fun r => ∀ c : Dev nD,
      r.2.mem ((c : Thread nD τ).loc main_v6_0) = spikeArr (m ((c : Thread nD τ).loc main_arg2)) (m ((c : Thread nD τ).loc main_arg3)) (m ((c : Thread nD τ).loc main_arg4)) (m ((c : Thread nD τ).loc main_arg7))
      ∧ r.2.mem ((c : Thread nD τ).loc main_v6_1) = membraneArr (m ((c : Thread nD τ).loc main_arg2)) (m ((c : Thread nD τ).loc main_arg3)) (m ((c : Thread nD τ).loc main_arg4)) (m ((c : Thread nD τ).loc main_arg7))
      ∧ r.2.mem ((c : Thread nD τ).loc main_v6_2) = currentArr (m ((c : Thread nD τ).loc main_arg0)) (m ((c : Thread nD τ).loc main_arg1)) (m ((c : Thread nD τ).loc main_arg3)) (m ((c : Thread nD τ).loc main_arg5)) (m ((c : Thread nD τ).loc main_arg6))
      ∧ r.2.mem ((c : Thread nD τ).loc main_v6_3) = refracArr (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (spikes_final m c), (h c).2.1.trans (membrane_final m c),
      (h c).2.2.1.trans (current_final m c), (h c).2.2.2.1.trans (refrac_final m c), (h c).2.2.2.2⟩)
    (Cert.KernelIdeal.Value.run_blocks m ρ)

end Cert.Lif.Arr

end
-- ==== Proof.lean ====
/-
  One step of a leaky integrate-and-fire cell with coupled compartments and a refractory counter: a
  kernel that works on blocks of 1024 rows, with bfloat16 operands into its three matrix products,
  against the plain array program.

  At the ideal values a float is an extended real, a change of format is the identity, and a matrix
  product is the exact sum over the contracted index, so both programs compute, entry `(b, h)`,

    z'[b,h] = (1 − [ρ > 0])·[v + (c₁·((0 − v) + i) + ∑ₖ v[b,k]·g[h,k]) − 1 > 0]
    v'[b,h] = (1 − [ρ > 0])·((1 − fired)·decayed + fired·0) + [ρ > 0]·v
    i'[b,h] = ((i + c₂·i) + ∑ₖ x[b,k]·wᵢ[h,k]) + ∑ₖ z[b,k]·wᵣ[h,k]
    ρ'[b,h] = (1 − z')·max (ρ − [ρ > 0]) 0 + z'·5

  with `c₁`, `c₂` the f32 words nearest 1/10 and −1/5, the same words in both programs (Proof/Spec.lean).
  The two texts differ only in spelling: the kernel transposes and narrows the weights once before the
  call and multiplies row against column, the reference multiplies by the transposed weights; the kernel
  converts a comparison's bit through a 32-bit word, the reference converts the bit; the reference's
  `relu` is the kernel's maximum with zero. No law of arithmetic is used beyond reading the two texts
  to the same expression, so the claim holds at the infinities too and the precondition is never opened.

  The reference side, stage by stage at an entry, is Proof/ReferenceEntries.lean; the kernel's body at an
  entry of a block is Proof/KernelEntries.lean; Proof/KernelArrays.lean goes from the 32 blocks to the
  arrays. The kernel's idealization rewrote no operation, so there is nothing to preserve.
-/
import proofs.«138688_j40913858462199_1_alg».proof.Defs
import proofs.«138688_j40913858462199_1_alg».proof.Proof.Gen.Kernel
import proofs.«138688_j40913858462199_1_alg».proof.Proof.Gen.Kernel.Skeleton
import proofs.«138688_j40913858462199_1_alg».proof.Proof.Gen.Kernel.Launch
import proofs.«138688_j40913858462199_1_alg».proof.Proof.Gen.Kernel.Points
import proofs.«138688_j40913858462199_1_alg».proof.Proof.Gen.Kernel.Frame
import proofs.«138688_j40913858462199_1_alg».proof.Proof.Gen.KernelIdeal
import proofs.«138688_j40913858462199_1_alg».proof.Proof.Gen.KernelIdeal.Skeleton
import proofs.«138688_j40913858462199_1_alg».proof.Proof.Gen.KernelIdeal.Launch
import proofs.«138688_j40913858462199_1_alg».proof.Proof.Gen.KernelIdeal.Points
import proofs.«138688_j40913858462199_1_alg».proof.Proof.Gen.KernelIdeal.Frame
import proofs.«138688_j40913858462199_1_alg».proof.Proof.Gen.ReferenceIdeal
import proofs.«138688_j40913858462199_1_alg».proof.Proof.Gen.Pre_finite_inputs
import proofs.«138688_j40913858462199_1_alg».proof.Proof.Gen.KernelIdeal.Value
import proofs.«138688_j40913858462199_1_alg».proof.Proof.Gen.ReferenceIdeal.Run
import proofs.«138688_j40913858462199_1_alg».proof.Proof.Gen.ReferenceIdeal.Read
import proofs.«138688_j40913858462199_1_alg».proof.Proof.ReferenceEntries
import proofs.«138688_j40913858462199_1_alg».proof.Proof.KernelArrays
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the four results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- From memories that agree on the eight arguments both programs end with the specification's four
    arrays of those arguments. -/
theorem algebraic : Cert.algebraic_KernelIdeal_ReferenceIdeal := by
  intro m ρ m' ρ' _ hagree
  refine ⟨_, _, _, _, Cert.Lif.Arr.run m ρ, ?_⟩
  refine (θ_run Cert.ReferenceIdeal.defs _ _).mono (fun _ h c => ?_)
    (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [Cert.ReferenceIdeal.Read.val_main_v39_eq, Cert.Lif.Ref.spikes_eq, a2, a3, a4, a7]
  · rw [Cert.ReferenceIdeal.Read.val_main_v36_eq, Cert.Lif.Ref.membrane_eq, a2, a3, a4, a7]
  · rw [Cert.ReferenceIdeal.Read.val_main_v28_eq, Cert.Lif.Ref.current_eq, a0, a1, a3, a5, a6]
  · rw [Cert.ReferenceIdeal.Read.val_main_v47_eq, Cert.Lif.Ref.refrac_eq, a2, a3, a4, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
